-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128 .f32) (main_arg14 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg10 : FVec F S128x128 .f32) (main_arg11 : FVec F S128x128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_v33

def fn {F : FTy → Type} [FloatOps F] (main_arg0 : FVec F S50000x128 .f32) (main_arg1 : FVec F S50000x128 .f32) (main_arg2 : FVec F S50000x128 .f32) (main_arg3 : IVec S600000 32) (main_arg4 : IVec S600000 32) (main_arg5 : IVec S600000 32) (main_arg6 : IVec S600000 32) (main_arg7 : IVec S600000 32) (main_arg8 : IVec S600000 32) (main_arg9 : FVec F S128x128 .f32) (main_arg10 : FVec F S128x128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x50000x128 : Shape := ⟨3, ![1, 50000, 128]⟩
abbrev S3x50000x128 : Shape := ⟨3, ![3, 50000, 128]⟩
abbrev S1x128x128 : Shape := ⟨3, ![1, 128, 128]⟩
abbrev S3x128x128 : Shape := ⟨3, ![3, 128, 128]⟩
abbrev S1x128 : Shape := ⟨2, ![1, 128]⟩
abbrev S3x128 : Shape := ⟨2, ![3, 128]⟩
abbrev S3x1x128 : Shape := ⟨3, ![3, 1, 128]⟩
abbrev S1x5000x128 : Shape := ⟨3, ![1, 5000, 128]⟩
abbrev S1x1x128 : Shape := ⟨3, ![1, 1, 128]⟩
abbrev S5000x128 : Shape := ⟨2, ![5000, 128]⟩

abbrev nBuf : Space → Nat
  | .hbm => 78
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S1x50000x128, .f32⟩
  | .hbm, ⟨55, _⟩ => ⟨S1x50000x128, .f32⟩
  | .hbm, ⟨56, _⟩ => ⟨S1x50000x128, .f32⟩
  | .hbm, ⟨57, _⟩ => ⟨S3x50000x128, .f32⟩
  | .hbm, ⟨58, _⟩ => ⟨S1x50000x128, .f32⟩
  | .hbm, ⟨59, _⟩ => ⟨S1x50000x128, .f32⟩
  | .hbm, ⟨60, _⟩ => ⟨S1x50000x128, .f32⟩
  | .hbm, ⟨61, _⟩ => ⟨S3x50000x128, .f32⟩
  | .hbm, ⟨62, _⟩ => ⟨S1x128x128, .f32⟩
  | .hbm, ⟨63, _⟩ => ⟨S1x128x128, .f32⟩
  | .hbm, ⟨64, _⟩ => ⟨S1x128x128, .f32⟩
  | .hbm, ⟨65, _⟩ => ⟨S3x128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S3x128, .f32⟩
  | .hbm, ⟨70, _⟩ => ⟨S3x1x128, .f32⟩
  | .hbm, ⟨71, _⟩ => ⟨S3x50000x128, .f32⟩
  | .hbm, ⟨72, _⟩ => ⟨S1x50000x128, .f32⟩
  | .hbm, ⟨73, _⟩ => ⟨S50000x128, .f32⟩
  | .hbm, ⟨74, _⟩ => ⟨S1x50000x128, .f32⟩
  | .hbm, ⟨75, _⟩ => ⟨S50000x128, .f32⟩
  | .hbm, ⟨76, _⟩ => ⟨S1x50000x128, .f32⟩
  | .hbm, ⟨77, _⟩ => ⟨S50000x128, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x128, .f32⟩
  | .local _ .vmem, ⟨3, _⟩ => ⟨S1x5000x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x5000x128, .f32⟩
  | .local _ .vmem, ⟨9, _⟩ => ⟨S1x5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  bcast_S128_S1x128_1 : S128.BroadcastsInDim S1x128 (![1] : Fin 1 → Fin S1x128.rank)
  concatenates_S1x128_S1x128_S1x128_S3x128_d0 : Shape.Concatenates [S1x128, S1x128, S1x128] S3x128 0
  bcast_S3x128_S3x1x128_0_2 : S3x128.BroadcastsInDim S3x1x128 (![0, 2] : Fin 2 → Fin S3x1x128.rank)
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S1x5000x128 : S1x5000x128.ShapeCasts S1x5000x128
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S128 : S1x1x128.ShapeCasts S128
  bitsLt_bf16_f32 : FTy.bits .bf16 < FTy.bits .f32
  shapeCasts_S128_S1x128 : S128.ShapeCasts S1x128
  broadcasts_S1x128_S5000x128 : S1x128.Broadcasts S5000x128
  shapeCasts_S5000x128_S1x5000x128 : S5000x128.ShapeCasts S1x5000x128
  slices_S3x50000x128_S1x50000x128_0_0_0 : S3x50000x128.Slices ![0, 0, 0] S1x50000x128
  shapeCasts_S1x50000x128_S50000x128 : S1x50000x128.ShapeCasts S50000x128
  slices_S3x50000x128_S1x50000x128_1_0_0 : S3x50000x128.Slices ![1, 0, 0] S1x50000x128
  slices_S3x50000x128_S1x50000x128_2_0_0 : S3x50000x128.Slices ![2, 0, 0] S1x50000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S3x50000x128.size a
  hwx0_0 : ∀ i : grid0.Coords, EltTy.bits .f32 = 32 ∨ (Rect.block (s := S3x50000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x128.size a ≤ S3x50000x128.size a
  hwx0_1 : ∀ i : grid0.Coords, EltTy.bits .f32 = 32 ∨ (Rect.block (s := S3x50000x128) S1x5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S3x128x128.size a
  hwx0_2 : ∀ i : grid0.Coords, EltTy.bits .f32 = 32 ∨ (Rect.block (s := S3x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S3x1x128.size a
  hwx0_3 : ∀ i : grid0.Coords, EltTy.bits .f32 = 32 ∨ (Rect.block (s := S3x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x128.size a ≤ S3x50000x128.size a
  hwx0_4 : ∀ i : grid0.Coords, EltTy.bits .f32 = 32 ∨ (Rect.block (s := S3x50000x128) S1x5000x128.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v33) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelFrame.lean ====
/-
  The frame of the program `Kernel`: fifty-six host lines build the three stacked operands (the edge aggregates, the
  node features, the weights, the bias rows), one launch on a 3 × 10 grid applies the dense layer to a tile of 5000
  rows of one branch, and six host lines cut the stacked result back into the three branches. The body at a grid point
  loads its four input blocks whole, stores one value (a function of them) over its whole output block, and touches
  nothing else; so the launch terminates, every window's array ends at what its blocks say, and no argument array is
  ever written: none is a window's array, and no host line writes one.
-/
import proofs.«176697_j66185446032026_1_alg».proof.Proof.Gen.Kernel.Launch
import proofs.«176697_j66185446032026_1_alg».proof.Proof.Gen.Kernel.Skeleton
import proofs.«176697_j66185446032026_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch is entered: the launch memory after the host lines before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the launch, and the host lines after it: run up to the launch it leaves the launch
    to be continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the launch touch only buffers that are a window's array or that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes a window's array: each writes its own result buffer, a slice or a reshaped slice. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as it was handed in. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 1: the launch finds it as it was handed in. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 2: the launch finds it as it was handed in. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 3: the launch finds it as it was handed in. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 4: the launch finds it as it was handed in. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 5: the launch finds it as it was handed in. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 6: the launch finds it as it was handed in. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 7: the launch finds it as it was handed in. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 8: the launch finds it as it was handed in. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 9: the launch finds it as it was handed in. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 10: the launch finds it as it was handed in. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 11: the launch finds it as it was handed in. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 12: the launch finds it as it was handed in. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 13: the launch finds it as it was handed in. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 14: the launch finds it as it was handed in. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: argument 0 ends as it was handed in. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does a line after it: argument 1 ends as it was handed in. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does a line after it: argument 2 ends as it was handed in. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does a line after it: argument 3 ends as it was handed in. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does a line after it: argument 4 ends as it was handed in. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does a line after it: argument 5 ends as it was handed in. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does a line after it: argument 6 ends as it was handed in. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does a line after it: argument 7 ends as it was handed in. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does a line after it: argument 8 ends as it was handed in. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does a line after it: argument 9 ends as it was handed in. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does a line after it: argument 10 ends as it was handed in. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nor does a line after it: argument 11 ends as it was handed in. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nor does a line after it: argument 12 ends as it was handed in. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- Nor does a line after it: argument 13 ends as it was handed in. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- Nor does a line after it: argument 14 ends as it was handed in. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    the block index had not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    the block index had not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    the block index had not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    the block index had not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every array -/

/-- From a run that ends with every window's array at its blocks and every other buffer as the later host lines leave
    it: each argument array ends as it was handed in. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c))⟩) h

/-! ## The body's accesses and what it leaves -/

/-- A whole block of 5000 rows of one branch, a whole weight block, a whole bias block. -/
abbrev rRows : Rect S1x5000x128 := Rect.unit (s := S1x5000x128) ![0, 0, 0] S1x5000x128.size inb_S1x5000x128_S1x5000x128_0_0_0
abbrev rWeights : Rect S1x128x128 := Rect.unit (s := S1x128x128) ![0, 0, 0] S1x128x128.size inb_S1x128x128_S1x128x128_0_0_0
abbrev rBias : Rect S1x1x128 := Rect.unit (s := S1x1x128) ![0, 0, 0] S1x1x128.size inb_S1x1x128_S1x1x128_0_0_0

/-- The output block after the body, from the four input blocks: its one store, over the whole block. -/
def out0_4 (x0 : Vec F S1x5000x128 .f32) (x1 : Vec F S1x5000x128 .f32) (x2 : Vec F S1x128x128 .f32) (x3 : Vec F S1x1x128 .f32) : Vec F S1x5000x128 .f32 :=
  View.canon [⟨rRows, k0_pay1 (View.ld x0 rRows) (View.ld x1 rRows) (View.ld x2 rWeights) (View.ld x3 rBias)⟩]

/-- The one store covers the block. -/
theorem cover0_4 (p0 : Vec F S1x5000x128 .f32) (y : S1x5000x128.Idx) :
    ∃ pc ∈ ([⟨rRows, p0⟩] : List (View.Piece (Elt F) S1x5000x128 .f32)), y ∈ pc.1.set :=
  View.cover_of_tiled [⟨rRows, p0⟩] S1x5000x128.size (by rfl) y

/-! ## The body's triple -/

set_option maxHeartbeats 1000000 in
/-- The body on whole staging buffers, the inputs' at `x0 … x3` and the output's at anything, ends with the inputs' as
    they were and the output's at `out0_4` of them. -/
theorem sound_kernel (c : Dev nD) (E : Set ℕ) (i : grid0.Coords) (arg2 : Memref sig .tc .vmem S1x5000x128 .f32) (harg2 : arg2.IsWhole) (arg3 : Memref sig .tc .vmem S1x5000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x5000x128 .f32) (harg6 : arg6.IsWhole)
    (x0 : Vec F S1x5000x128 .f32) (x1 : Vec F S1x5000x128 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gcn_epilogue_kernel i arg2 harg2 arg3 harg3 arg4 harg4 arg5 harg5 arg6 harg6) K := by
  simp only [cc0__gcn_epilogue_kernel_eq_skeleton]; unfold cc0__gcn_epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- On core `c`: the arrays as the launch finds them; after the body at point `t` each input's buffer at its block and
    the output's at `out0_4` of the input blocks; the scratch and the generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every window's array
    ending at what its blocks say and every other buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates, nothing faults, and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Region

end
-- ==== Proof.KernelIdealFrame.lean ====
/-
  The frame of the program `KernelIdeal`: fifty-six host lines build the three stacked operands (the edge aggregates, the
  node features, the weights, the bias rows), one launch on a 3 × 10 grid applies the dense layer to a tile of 5000
  rows of one branch, and six host lines cut the stacked result back into the three branches. The body at a grid point
  loads its four input blocks whole, stores one value (a function of them) over its whole output block, and touches
  nothing else; so the launch terminates, every window's array ends at what its blocks say, and no argument array is
  ever written: none is a window's array, and no host line writes one.
-/
import proofs.«176697_j66185446032026_1_alg».proof.Proof.Gen.KernelIdeal.Launch
import proofs.«176697_j66185446032026_1_alg».proof.Proof.Gen.KernelIdeal.Skeleton
import proofs.«176697_j66185446032026_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch is entered: the launch memory after the host lines before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the launch, and the host lines after it: run up to the launch it leaves the launch
    to be continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the launch touch only buffers that are a window's array or that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes a window's array: each writes its own result buffer, a slice or a reshaped slice. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as it was handed in. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 1: the launch finds it as it was handed in. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 2: the launch finds it as it was handed in. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 3: the launch finds it as it was handed in. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 4: the launch finds it as it was handed in. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 5: the launch finds it as it was handed in. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 6: the launch finds it as it was handed in. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 7: the launch finds it as it was handed in. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 8: the launch finds it as it was handed in. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 9: the launch finds it as it was handed in. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 10: the launch finds it as it was handed in. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 11: the launch finds it as it was handed in. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 12: the launch finds it as it was handed in. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 13: the launch finds it as it was handed in. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 14: the launch finds it as it was handed in. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a line after it: argument 0 ends as it was handed in. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does a line after it: argument 1 ends as it was handed in. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does a line after it: argument 2 ends as it was handed in. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does a line after it: argument 3 ends as it was handed in. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does a line after it: argument 4 ends as it was handed in. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does a line after it: argument 5 ends as it was handed in. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does a line after it: argument 6 ends as it was handed in. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does a line after it: argument 7 ends as it was handed in. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does a line after it: argument 8 ends as it was handed in. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does a line after it: argument 9 ends as it was handed in. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does a line after it: argument 10 ends as it was handed in. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nor does a line after it: argument 11 ends as it was handed in. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nor does a line after it: argument 12 ends as it was handed in. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- Nor does a line after it: argument 13 ends as it was handed in. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- Nor does a line after it: argument 14 ends as it was handed in. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    the block index had not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    the block index had not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    the block index had not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    the block index had not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every array -/

/-- From a run that ends with every window's array at its blocks and every other buffer as the later host lines leave
    it: each argument array ends as it was handed in. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c))⟩) h

/-! ## The body's accesses and what it leaves -/

/-- A whole block of 5000 rows of one branch, a whole weight block, a whole bias block. -/
abbrev rRows : Rect S1x5000x128 := Rect.unit (s := S1x5000x128) ![0, 0, 0] S1x5000x128.size inb_S1x5000x128_S1x5000x128_0_0_0
abbrev rWeights : Rect S1x128x128 := Rect.unit (s := S1x128x128) ![0, 0, 0] S1x128x128.size inb_S1x128x128_S1x128x128_0_0_0
abbrev rBias : Rect S1x1x128 := Rect.unit (s := S1x1x128) ![0, 0, 0] S1x1x128.size inb_S1x1x128_S1x1x128_0_0_0

/-- The output block after the body, from the four input blocks: its one store, over the whole block. -/
def out0_4 (x0 : Vec F S1x5000x128 .f32) (x1 : Vec F S1x5000x128 .f32) (x2 : Vec F S1x128x128 .f32) (x3 : Vec F S1x1x128 .f32) : Vec F S1x5000x128 .f32 :=
  View.canon [⟨rRows, k0_pay1 (View.ld x0 rRows) (View.ld x1 rRows) (View.ld x2 rWeights) (View.ld x3 rBias)⟩]

/-- The one store covers the block. -/
theorem cover0_4 (p0 : Vec F S1x5000x128 .f32) (y : S1x5000x128.Idx) :
    ∃ pc ∈ ([⟨rRows, p0⟩] : List (View.Piece (Elt F) S1x5000x128 .f32)), y ∈ pc.1.set :=
  View.cover_of_tiled [⟨rRows, p0⟩] S1x5000x128.size (by rfl) y

/-! ## The body's triple -/

set_option maxHeartbeats 1000000 in
/-- The body on whole staging buffers, the inputs' at `x0 … x3` and the output's at anything, ends with the inputs' as
    they were and the output's at `out0_4` of them. -/
theorem sound_kernel (c : Dev nD) (E : Set ℕ) (i : grid0.Coords) (arg2 : Memref sig .tc .vmem S1x5000x128 .f32) (harg2 : arg2.IsWhole) (arg3 : Memref sig .tc .vmem S1x5000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x5000x128 .f32) (harg6 : arg6.IsWhole)
    (x0 : Vec F S1x5000x128 .f32) (x1 : Vec F S1x5000x128 .f32) (x2 : Vec F S1x128x128 .f32) (x3 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gcn_epilogue_kernel i arg2 harg2 arg3 harg3 arg4 harg4 arg5 harg5 arg6 harg6) K := by
  simp only [cc0__gcn_epilogue_kernel_eq_skeleton]; unfold cc0__gcn_epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- On core `c`: the arrays as the launch finds them; after the body at point `t` each input's buffer at its block and
    the output's at `out0_4` of the input blocks; the scratch and the generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every window's array
    ending at what its blocks say and every other buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates, nothing faults, and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Region

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  One branch of the graph layer as one function of its four arrays: the aggregated rows A, the weights W, the bias b
  and the node features h give  out(r, c) = max(Σ_k A(r, k) · W(k, c) + b(c), 0) + h(r, c)  over the extended reals.
-/
import proofs.«176697_j66185446032026_1_alg».proof.Proof.LibDense

noncomputable section

namespace Cert.Layer

open Idealize.ShloMosaic Idealize.ShloMosaic.ValueIdx Cert.Dense

/-- The layer with its residual: the rectified affine image of row r of A, entry c, plus h(r, c). -/
def branch {R K C : ℕ} (A : FVec Ideal ⟨2, ![R, K]⟩ .f32) (W : FVec Ideal ⟨2, ![K, C]⟩ .f32)
    (b : FVec Ideal ⟨1, ![C]⟩ .f32) (h : FVec Ideal ⟨2, ![R, C]⟩ .f32) : FVec Ideal ⟨2, ![R, C]⟩ .f32 :=
  fun i => max (affine W b (fun k => A (ix2 (i 0) k)) (i 1)) 0 + h i

theorem branch_apply {R K C : ℕ} (A : FVec Ideal ⟨2, ![R, K]⟩ .f32) (W : FVec Ideal ⟨2, ![K, C]⟩ .f32)
    (b : FVec Ideal ⟨1, ![C]⟩ .f32) (h : FVec Ideal ⟨2, ![R, C]⟩ .f32) (r : Fin R) (c : Fin C) :
    branch A W b h (ix2 r c) = max (affine W b (fun k => A (ix2 r k)) c) 0 + h (ix2 r c) := rfl

end Cert.Layer

end
-- ==== Proof.KernelIdealPayload.lean ====
/-
  What the kernel body stores, read at one entry. The body views its [1, 5000, 128] blocks of aggregated rows and of
  node features as [5000, 128] tiles, its [1, 128, 128] weight block as a [128, 128] matrix and its [1, 1, 128] bias
  block as a row; narrows the tile and the matrix to bf16 (the identity on the extended reals), multiplies them into
  zeros, adds the bias row to every row, takes the maximum with zero, adds the feature tile and views the result as a
  [1, 5000, 128] block again. At (u, r, c) that is  max(Σ_k a(0, r, k) · w(0, k, c) + b(0, 0, c), 0) + h(0, r, c).
-/
import proofs.«176697_j66185446032026_1_alg».proof.Proof.Gen.KernelIdeal.Skeleton
import proofs.«176697_j66185446032026_1_alg».proof.Proof.Spec
import Idealize.ShloMosaic.Lib.ValueLayout

noncomputable section

namespace Cert.KernelIdeal.Payload

open Cert.KernelIdeal Cert.KernelIdeal.Gen Idealize.ShloMosaic Idealize.ShloMosaic.ValueIdx Cert.Dense Cert.Layer

/-- The weight block as a matrix and the bias block as a row. -/
def wOf (x2 : S1x128x128.Idx → EReal) : FVec Ideal ⟨2, ![128, 128]⟩ .f32 := fun j => x2 (ix3 (0 : Fin 1) (j 0) (j 1))
def bOf (x3 : S1x1x128.Idx → EReal) : FVec Ideal ⟨1, ![128]⟩ .f32 := fun j => x3 (ix3 (0 : Fin 1) (0 : Fin 1) (j 0))

theorem weights_view (x2 : Vec Ideal S1x128x128 .f32) :
    shapeCast S128x128 (shapeCast S1x128x128 x2 shapeCasts_S1x128x128_S1x128x128) shapeCasts_S1x128x128_S128x128 = wOf x2 := by
  funext j
  obtain ⟨p, q, rfl⟩ : ∃ (p : Fin 128) (q : Fin 128), j = ix2 p q := ⟨j 0, j 1, eq_ix2 j⟩
  rw [shapeCast_self]
  exact shapeCast_1ab_ab_apply x2 _ p q

theorem bias_view (x3 : Vec Ideal S1x1x128 .f32) :
    shapeCast S128 (shapeCast S1x1x128 x3 shapeCasts_S1x1x128_S1x1x128) shapeCasts_S1x1x128_S128 = bOf x3 := by
  funext j
  obtain ⟨q, rfl⟩ : ∃ q : Fin 128, j = ix1 q := ⟨j 0, eq_ix1 j⟩
  rw [shapeCast_self]
  refine shapeCast_apply x3 _ (ix1 q) (ix3 (0 : Fin 1) (0 : Fin 1) q) ?_
  rw [Shape.rowMajor_val_three, Shape.rowMajor_val_one]
  show (0 * 1 + 0) * 128 + q.val = q.val
  omega

theorem rows_view (x : Vec Ideal S1x5000x128 .f32) (r : Fin 5000) (k : Fin 128) :
    shapeCast S5000x128 (shapeCast S1x5000x128 x shapeCasts_S1x5000x128_S1x5000x128) shapeCasts_S1x5000x128_S5000x128 (ix2 r k)
      = x (ix3 (0 : Fin 1) r k) := by
  rw [shapeCast_self]
  exact shapeCast_1ab_ab_apply x _ r k

/-- The stored block at (u, r, c). -/
theorem payload_apply (x0 x1 : Vec Ideal S1x5000x128 .f32) (x2 : Vec Ideal S1x128x128 .f32) (x3 : Vec Ideal S1x1x128 .f32)
    (u : Fin 1) (r : Fin 5000) (c : Fin 128) :
    k0_pay1 (F := Ideal) x0 x1 x2 x3 (ix3 u r c)
      = max (affine (wOf x2) (bOf x3) (fun k => x0 (ix3 (0 : Fin 1) r k)) c) 0 + x1 (ix3 (0 : Fin 1) r c) := by
  unfold k0_pay1
  refine (shapeCast_ab_1ab_apply _ shapeCasts_S5000x128_S1x5000x128 u r c).trans ?_
  refine (addf_apply _ _ (ix2 r c)).trans ?_
  refine congrArg₂ (· + ·) ?_ (rows_view x1 r c)
  refine (kernel_relu_apply _ (ix2 r c)).trans ?_
  refine congrArg (fun z => max z 0) ?_
  refine (kernel_affine_apply dot_S5000x128_S128x128_S5000x128_1_0_0_1_n_n rfl rfl rfl rfl rfl rfl bitsLt_bf16_f32
    shapeCasts_S128_S1x128 broadcasts_S1x128_S5000x128 _ _ _ r c).trans ?_
  rw [weights_view, bias_view]
  exact congrArg (fun v => affine (wOf x2) (bOf x3) v c) (funext fun k => rows_view x0 r k)

end Cert.KernelIdeal.Payload

end
-- ==== Proof.KernelIdealBlocks.lean ====
/-
  The launch's result array as one function of its four operand arrays. Grid point (q, p) fetches rows 5000·p … of
  plane q of the aggregates and of the features, all of plane q of the weights and of the biases, and writes rows
  5000·p … of plane q of the result; what it writes at (q, 5000·p + r, c) is the layer of branch q at row 5000·p + r,
  column c. The thirty blocks tile the [3, 50000, 128] result, so the array ends holding that function everywhere.
-/
import proofs.«176697_j66185446032026_1_alg».proof.Proof.KernelIdealFrame
import proofs.«176697_j66185446032026_1_alg».proof.Proof.KernelIdealPayload
import Idealize.ShloMosaic.Lib.Pipeline.Value

set_option maxRecDepth 16384

noncomputable section

namespace Cert.KernelIdeal.Blocks

open Cert.KernelIdeal Cert.KernelIdeal.Gen Cert.KernelIdeal.Region Cert.KernelIdeal.Payload
open Idealize.ShloMosaic Idealize.ShloMosaic.TcCoe Idealize.ShloMosaic.ValueIdx Idealize.SL.Sem Cert.Dense Cert.Layer
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The stacked layer: plane q of the result is branch q's layer of plane q of each operand. -/
def layerStack (A H : S3x50000x128.Idx → EReal) (Wst : S3x128x128.Idx → EReal) (Bst : S3x1x128.Idx → EReal) :
    S3x50000x128.Idx → EReal :=
  fun j => max (affine (K := 128) (C := 128) (fun j' : (⟨2, ![128, 128]⟩ : Shape).Idx => Wst (ix3 (j 0) (j' 0) (j' 1)))
    (fun j' : (⟨1, ![128]⟩ : Shape).Idx => Bst (ix3 (j 0) (0 : Fin 1) (j' 0)))
    (fun k : Fin 128 => A (ix3 (j 0) (j 1) k)) (j 2)) 0 + H j

/-- The index maps over the grid: every input window sits on the output's plane; the two row-tiled inputs on the
    output's row block; nothing moves along the last axis or along the weights' and biases' own axes. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (1 : Fin 3) ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 2 ∧ win0_4.index t (1 : Fin 3) ≤ 9 :=
  (by decide +kernel : ∀ t : Fin grid0.N, _)

/-- Every (plane, row block) is some grid point's. -/
theorem idx_onto : ∀ (q0 : Fin 3) (q1 : Fin 10), ∃ t : Fin cfg0.N, win0_4.index t = ![q0.val, q1.val, 0] :=
  (by decide +kernel : ∀ (q0 : Fin 3) (q1 : Fin 10), ∃ t : Fin grid0.N, win0_4.index t = ![q0.val, q1.val, 0])

/-- The weight block at a point is the plane of the weights the point's plane coordinate names. -/
theorem weights_block (c : Dev nD) (t : Fin cfg0.N) (q : Fin 3) (hq : q.val = win0_4.index t (0 : Fin 3))
    (j' : (⟨2, ![128, 128]⟩ : Shape).Idx) :
    wOf (iblk m c 2 t) j' = V m c main_v41 (ix3 q (j' 0) (j' 1)) := by
  obtain ⟨e00, e01, e02, e10, e11, e12, e20, e21, e22, e30, e31, e32, e42, b40, b41⟩ := idx_facts t
  show V m c main_v41 (((cfg0.win 2).blk t).view.emb (ix3 (0 : Fin 1) (j' 0) (j' 1))) = _
  refine congrArg (V m c main_v41) (funext fun a => Fin.ext ?_)
  match a with
  | ⟨0, _⟩ => show win0_2.index t (0 : Fin 3) * 1 + 1 * 0 = q.val; omega
  | ⟨1, _⟩ => show win0_2.index t (1 : Fin 3) * 128 + 1 * (j' 0).val = (j' 0).val; omega
  | ⟨2, _⟩ => show win0_2.index t (2 : Fin 3) * 128 + 1 * (j' 1).val = (j' 1).val; omega

/-- The bias block at a point is that plane of the biases. -/
theorem biases_block (c : Dev nD) (t : Fin cfg0.N) (q : Fin 3) (hq : q.val = win0_4.index t (0 : Fin 3))
    (j' : (⟨1, ![128]⟩ : Shape).Idx) :
    bOf (iblk m c 3 t) j' = V m c main_v46 (ix3 q (0 : Fin 1) (j' 0)) := by
  obtain ⟨e00, e01, e02, e10, e11, e12, e20, e21, e22, e30, e31, e32, e42, b40, b41⟩ := idx_facts t
  show V m c main_v46 (((cfg0.win 3).blk t).view.emb (ix3 (0 : Fin 1) (0 : Fin 1) (j' 0))) = _
  refine congrArg (V m c main_v46) (funext fun a => Fin.ext ?_)
  match a with
  | ⟨0, _⟩ => show win0_3.index t (0 : Fin 3) * 1 + 1 * 0 = q.val; omega
  | ⟨1, _⟩ => show win0_3.index t (1 : Fin 3) * 1 + 1 * 0 = 0; omega
  | ⟨2, _⟩ => show win0_3.index t (2 : Fin 3) * 128 + 1 * (j' 0).val = (j' 0).val; omega

/-- Row r of the aggregate block at a point is row 5000·p + r of that plane of the aggregates. -/
theorem aggregates_block (c : Dev nD) (t : Fin cfg0.N) (q : Fin 3) (hq : q.val = win0_4.index t (0 : Fin 3))
    (r : Fin 5000) (R : Fin 50000) (hR : R.val = win0_4.index t (1 : Fin 3) * 5000 + r.val) (k' : Fin 128) :
    iblk m c 0 t (ix3 (0 : Fin 1) r k') = V m c main_v33 (ix3 q R k') := by
  obtain ⟨e00, e01, e02, e10, e11, e12, e20, e21, e22, e30, e31, e32, e42, b40, b41⟩ := idx_facts t
  show V m c main_v33 (((cfg0.win 0).blk t).view.emb (ix3 (0 : Fin 1) r k')) = _
  refine congrArg (V m c main_v33) (funext fun a => Fin.ext ?_)
  match a with
  | ⟨0, _⟩ => show win0_0.index t (0 : Fin 3) * 1 + 1 * 0 = q.val; omega
  | ⟨1, _⟩ => show win0_0.index t (1 : Fin 3) * 5000 + 1 * r.val = R.val; omega
  | ⟨2, _⟩ => show win0_0.index t (2 : Fin 3) * 128 + 1 * k'.val = k'.val; omega

/-- The same of the feature block. -/
theorem features_block (c : Dev nD) (t : Fin cfg0.N) (q : Fin 3) (hq : q.val = win0_4.index t (0 : Fin 3))
    (r : Fin 5000) (R : Fin 50000) (hR : R.val = win0_4.index t (1 : Fin 3) * 5000 + r.val) (k' : Fin 128) :
    iblk m c 1 t (ix3 (0 : Fin 1) r k') = V m c main_v37 (ix3 q R k') := by
  obtain ⟨e00, e01, e02, e10, e11, e12, e20, e21, e22, e30, e31, e32, e42, b40, b41⟩ := idx_facts t
  show V m c main_v37 (((cfg0.win 1).blk t).view.emb (ix3 (0 : Fin 1) r k')) = _
  refine congrArg (V m c main_v37) (funext fun a => Fin.ext ?_)
  match a with
  | ⟨0, _⟩ => show win0_1.index t (0 : Fin 3) * 1 + 1 * 0 = q.val; omega
  | ⟨1, _⟩ => show win0_1.index t (1 : Fin 3) * 5000 + 1 * r.val = R.val; omega
  | ⟨2, _⟩ => show win0_1.index t (2 : Fin 3) * 128 + 1 * k'.val = k'.val; omega

/-- The array index under a block index of the output window. -/
theorem out_index (t : Fin cfg0.N) (u : Fin 1) (r : Fin 5000) (k : Fin 128) :
    ∃ (q : Fin 3) (R : Fin 50000), q.val = win0_4.index t (0 : Fin 3) ∧ R.val = win0_4.index t (1 : Fin 3) * 5000 + r.val
      ∧ ((cfg0.win 4).blk t).view.emb (ix3 u r k) = ix3 q R k := by
  obtain ⟨e00, e01, e02, e10, e11, e12, e20, e21, e22, e30, e31, e32, e42, b40, b41⟩ := idx_facts t
  have hu : u.val = 0 := by omega
  refine ⟨⟨win0_4.index t (0 : Fin 3), by omega⟩, ⟨win0_4.index t (1 : Fin 3) * 5000 + r.val, by have := r.isLt; omega⟩, rfl, rfl, ?_⟩
  funext a
  apply Fin.ext
  match a with
  | ⟨0, _⟩ => show win0_4.index t (0 : Fin 3) * 1 + 1 * u.val = win0_4.index t (0 : Fin 3); omega
  | ⟨1, _⟩ => show win0_4.index t (1 : Fin 3) * 5000 + 1 * r.val = win0_4.index t (1 : Fin 3) * 5000 + r.val; omega
  | ⟨2, _⟩ => show win0_4.index t (2 : Fin 3) * 128 + 1 * k.val = k.val; omega

/-- What point `t` writes back is block `t` of the stacked layer of the operand arrays as the launch finds them. -/
theorem flushed_eq (c : Dev nD) (t : Fin cfg0.N) :
    (dats m 0 c).flushed 4 t = ((cfg0.win 4).blk t).view.read (Elt Ideal)
      (layerStack (V m c main_v33) (V m c main_v37) (V m c main_v41) (V m c main_v46)) := by
  show (cfg0.win 4).cut (grid0.coords t) ((dats m 0 c).after 4 t) = _
  rw [after0_4]
  unfold out0_4
  rw [View.canon_unit_zero hz]
  simp only [View.ld_unit_zero (S := S1x5000x128) hz, View.ld_unit_zero (S := S1x128x128) hz, View.ld_unit_zero (S := S1x1x128) hz]
  funext y
  obtain ⟨u, r, k, rfl⟩ : ∃ (u : Fin 1) (r : Fin 5000) (k : Fin 128), y = ix3 u r k := ⟨y 0, y 1, y 2, eq_ix3 y⟩
  refine (payload_apply (iblk m c 0 t) (iblk m c 1 t) (iblk m c 2 t) (iblk m c 3 t) u r k).trans ?_
  obtain ⟨q, R, hq, hR, hjj⟩ := out_index t u r k
  show _ = layerStack (V m c main_v33) (V m c main_v37) (V m c main_v41) (V m c main_v46) (((cfg0.win 4).blk t).view.emb (ix3 u r k))
  rw [hjj]
  show _ = max (affine (K := 128) (C := 128) (fun j' : (⟨2, ![128, 128]⟩ : Shape).Idx => V m c main_v41 (ix3 q (j' 0) (j' 1)))
      (fun j' : (⟨1, ![128]⟩ : Shape).Idx => V m c main_v46 (ix3 q (0 : Fin 1) (j' 0)))
      (fun k' : Fin 128 => V m c main_v33 (ix3 q R k')) k) 0 + V m c main_v37 (ix3 q R k)
  rw [show wOf (iblk m c 2 t) = (fun j' : (⟨2, ![128, 128]⟩ : Shape).Idx => V m c main_v41 (ix3 q (j' 0) (j' 1))) from
      funext (weights_block m c t q hq),
    show bOf (iblk m c 3 t) = (fun j' : (⟨1, ![128]⟩ : Shape).Idx => V m c main_v46 (ix3 q (0 : Fin 1) (j' 0))) from
      funext (biases_block m c t q hq),
    show (fun k' : Fin 128 => iblk m c 0 t (ix3 (0 : Fin 1) r k')) = (fun k' : Fin 128 => V m c main_v33 (ix3 q R k')) from
      funext (aggregates_block m c t q hq r R hR),
    features_block m c t q hq r R hR k]

/-- An index of the result array is in point `t`'s block iff each coordinate is in the block's range on its axis. -/
theorem mem_blk (t : Fin cfg0.N) (i : S3x50000x128.Idx) :
    i ∈ ((cfg0.win 4).blk t).view.set ↔ ∀ a : Fin 3, win0_4.index t a * S1x5000x128.size a ≤ (i a).val ∧ (i a).val < win0_4.index t a * S1x5000x128.size a + S1x5000x128.size a := by
  show i ∈ ((View.whole main_v47).slice (win0_4.rect t)).set ↔ _
  rw [View.set_slice_whole, Rect.mem_set_unit]
  exact Iff.rfl

/-- The blocks tile the result array. -/
theorem covered (i : S3x50000x128.Idx) :
    ∃ t : Fin cfg0.N, (cfg0.win 4).flush t = true ∧ i ∈ ((cfg0.win 4).blk t).view.set := by
  have hi0 : (i 0).val < 3 := (i 0).isLt
  have hi1 : (i 1).val < 50000 := (i 1).isLt
  have hi2 : (i 2).val < 128 := (i 2).isLt
  obtain ⟨t, ht⟩ := idx_onto ⟨(i 0).val, hi0⟩ ⟨(i 1).val / 5000, by omega⟩
  have q0 : win0_4.index t (0 : Fin 3) = (i 0).val := congrFun ht 0
  have q1 : win0_4.index t (1 : Fin 3) = (i 1).val / 5000 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 5000 ≤ (i 1).val ∧ (i 1).val < win0_4.index t (1 : Fin 3) * 5000 + 5000; omega
  | ⟨2, _⟩ => show win0_4.index t (2 : Fin 3) * 128 ≤ (i 2).val ∧ (i 2).val < win0_4.index t (2 : Fin 3) * 128 + 128; omega

/-- The result array after the launch: the stacked layer of the operand arrays. -/
theorem final (c : Dev nD) : (dats m 0 c).arrAt 4 cfg0.N
    = layerStack (V m c main_v33) (V m c main_v37) (V m c main_v41) (V m c main_v46) :=
  (dats m 0 c).arrAt_eq_of_cover 4 _ (fun t _ => flushed_eq m c t) covered

end Cert.KernelIdeal.Blocks

end
-- ==== Proof.LibNary3.lean ====
/-
  A host operation over a LITERAL family of three references (a concatenation of three operands): its result with each
  operand's contents at its own reference, so that rewriting the operands' contents can go on under it; and the one-pass
  rewriting of a straight line's results with that rule added.
-/
import Idealize.ShloMosaic.Lib.StableHlo.Run

noncomputable section

namespace Idealize.ShloMosaic.StableHlo

variable {nD : Nat} {τ : Topo} {sig : RefSig} {Val : EltTy → Type}

/-- The three-operand operation's result at its result buffer: its function of the three operands' contents, each read
    at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rule's key, for use as a simplification rule. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a straight line of host operations by one simplification pass, three-operand operations included. -/
macro "after_results_simp3" : tactic =>
  `(tactic| (simp (disch := decide) only [after_cons, after_nil,
      nullary_result', unary_result', binary_result', ternary_result', quaternary_result', reshape_result', nary4_result',
      nary3_result', nary_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KernelIdealHost.lean ====
/-
  What the launch finds in its four operand arrays. The host lines before it aggregate each branch's edges (gather the
  source rows, add them into the destination rows), then stack, along a new leading axis of extent 3, the three
  aggregates, the three feature arrays, the three weight matrices and the three bias rows (these last as [3, 1, 128]).
  Read at an entry, plane q of a stack is branch q's array.
-/
import proofs.«176697_j66185446032026_1_alg».proof.Proof.KernelIdealFrame
import proofs.«176697_j66185446032026_1_alg».proof.Proof.LibNary3
import Idealize.ShloMosaic.Lib.ValueIdx
import Idealize.ShloMosaic.Lib.Pipeline.Value
import Idealize.ShloMosaic.Lib.StableHlo.Run

set_option maxRecDepth 16384

noncomputable section

namespace Cert.KernelIdeal.HostPrefix

open Cert.KernelIdeal Cert.KernelIdeal.Gen Cert.KernelIdeal.Region
open Idealize.ShloMosaic Idealize.ShloMosaic.TcCoe Idealize.ShloMosaic.ValueIdx Idealize.ShloMosaic.StableHlo Idealize.SL.Sem

/-! ## Stacks of three unit-extent planes, and a plane laid under a new leading axis, read at an entry -/

/-- Three [1, a, b] planes joined along axis 0: plane q at (0, r, k). -/
theorem stack3_apply {α : Type} {a b : ℕ} (y : Fin 3 → (⟨3, ![1, a, b]⟩ : Shape).Idx → α)
    (h : Shape.Concatenates ([(⟨⟨3, ![1, a, b]⟩, y 0⟩ : (s : Shape) × (s.Idx → α)), ⟨⟨3, ![1, a, b]⟩, y 1⟩, ⟨⟨3, ![1, a, b]⟩, y 2⟩].map (·.1)) ⟨3, ![3, a, b]⟩ 0)
    (q : Fin 3) (r : Fin a) (k : Fin b) :
    concatenate ⟨3, ![3, a, b]⟩ 0 [⟨⟨3, ![1, a, b]⟩, y 0⟩, ⟨⟨3, ![1, a, b]⟩, y 1⟩, ⟨⟨3, ![1, a, b]⟩, y 2⟩] h (ix3 q r k)
      = y q (ix3 (0 : Fin 1) r k) := by
  have hi : ∀ q' : Fin 3, ∀ b' : Fin 3, b'.cast rfl ≠ (0 : Fin 3) →
      ((ix3 (0 : Fin 1) r k : (⟨3, ![1, a, b]⟩ : Shape).Idx) b').val = ((ix3 q' r k : (⟨3, ![3, a, b]⟩ : Shape).Idx) (b'.cast rfl)).val := by
    intro q' b' hb
    match b' with
    | ⟨0, _⟩ => exact absurd rfl hb
    | ⟨1, _⟩ => rfl
    | ⟨2, _⟩ => rfl
  match q with
  | ⟨0, _⟩ => exact concatenate_apply_piece 0 _ h _ 0 (by show (0 : ℕ) < 3; omega) _ (y 0) rfl rfl 0 rfl (ix3 (0 : Fin 1) r k) (hi _) rfl
  | ⟨1, _⟩ => exact concatenate_apply_piece 0 _ h _ 1 (by show (1 : ℕ) < 3; omega) _ (y 1) rfl rfl 1 rfl (ix3 (0 : Fin 1) r k) (hi _) rfl
  | ⟨2, _⟩ => exact concatenate_apply_piece 0 _ h _ 2 (by show (2 : ℕ) < 3; omega) _ (y 2) rfl rfl 2 rfl (ix3 (0 : Fin 1) r k) (hi _) rfl

/-- Three [1, a] rows joined along axis 0: row q at (0, k). -/
theorem stack3_rows_apply {α : Type} {a : ℕ} (y : Fin 3 → (⟨2, ![1, a]⟩ : Shape).Idx → α)
    (h : Shape.Concatenates ([(⟨⟨2, ![1, a]⟩, y 0⟩ : (s : Shape) × (s.Idx → α)), ⟨⟨2, ![1, a]⟩, y 1⟩, ⟨⟨2, ![1, a]⟩, y 2⟩].map (·.1)) ⟨2, ![3, a]⟩ 0)
    (q : Fin 3) (k : Fin a) :
    concatenate ⟨2, ![3, a]⟩ 0 [⟨⟨2, ![1, a]⟩, y 0⟩, ⟨⟨2, ![1, a]⟩, y 1⟩, ⟨⟨2, ![1, a]⟩, y 2⟩] h (ix2 q k)
      = y q (ix2 (0 : Fin 1) k) := by
  have hi : ∀ q' : Fin 3, ∀ b' : Fin 2, b'.cast rfl ≠ (0 : Fin 2) →
      ((ix2 (0 : Fin 1) k : (⟨2, ![1, a]⟩ : Shape).Idx) b').val = ((ix2 q' k : (⟨2, ![3, a]⟩ : Shape).Idx) (b'.cast rfl)).val := by
    intro q' b' hb
    match b' with
    | ⟨0, _⟩ => exact absurd rfl hb
    | ⟨1, _⟩ => rfl
  match q with
  | ⟨0, _⟩ => exact concatenate_apply_piece 0 _ h _ 0 (by show (0 : ℕ) < 3; omega) _ (y 0) rfl rfl 0 rfl (ix2 (0 : Fin 1) k) (hi _) rfl
  | ⟨1, _⟩ => exact concatenate_apply_piece 0 _ h _ 1 (by show (1 : ℕ) < 3; omega) _ (y 1) rfl rfl 1 rfl (ix2 (0 : Fin 1) k) (hi _) rfl
  | ⟨2, _⟩ => exact concatenate_apply_piece 0 _ h _ 2 (by show (2 : ℕ) < 3; omega) _ (y 2) rfl rfl 2 rfl (ix2 (0 : Fin 1) k) (hi _) rfl

/-- An [a, b] array laid under a new leading unit axis reads its own entry. -/
theorem plane_apply {α : Type} {a b : ℕ} (X : (⟨2, ![a, b]⟩ : Shape).Idx → α)
    (h : (⟨2, ![a, b]⟩ : Shape).BroadcastsInDim ⟨3, ![1, a, b]⟩ (![1, 2] : Fin 2 → Fin 3)) (u : Fin 1) (r : Fin a) (k : Fin b) :
    broadcastInDim ⟨3, ![1, a, b]⟩ ![1, 2] h X (ix3 u r k) = X (ix2 r k) :=
  broadcastInDim_apply ![1, 2] h X (ix3 u r k) (ix2 r k) fun ax => by
    match ax with
    | ⟨0, _⟩ =>
      show r.val = if a = 1 then 0 else r.val
      split
      · have := r.isLt; omega
      · rfl
    | ⟨1, _⟩ =>
      show k.val = if b = 1 then 0 else k.val
      split
      · have := k.isLt; omega
      · rfl

/-- An [a] row laid under a new leading unit axis reads its own entry. -/
theorem row_apply {α : Type} {a : ℕ} (X : (⟨1, ![a]⟩ : Shape).Idx → α)
    (h : (⟨1, ![a]⟩ : Shape).BroadcastsInDim ⟨2, ![1, a]⟩ (![1] : Fin 1 → Fin 2)) (u : Fin 1) (k : Fin a) :
    broadcastInDim ⟨2, ![1, a]⟩ ![1] h X (ix2 u k) = X (ix1 k) :=
  broadcastInDim_apply ![1] h X (ix2 u k) (ix1 k) fun ax => by
    match ax with
    | ⟨0, _⟩ =>
      show k.val = if a = 1 then 0 else k.val
      split
      · have := k.isLt; omega
      · rfl

/-- A [3, a] array with a unit axis put in the middle reads its own entry. -/
theorem mid_apply {α : Type} {a : ℕ} (X : (⟨2, ![3, a]⟩ : Shape).Idx → α)
    (h : (⟨2, ![3, a]⟩ : Shape).BroadcastsInDim ⟨3, ![3, 1, a]⟩ (![0, 2] : Fin 2 → Fin 3)) (q : Fin 3) (u : Fin 1) (k : Fin a) :
    broadcastInDim ⟨3, ![3, 1, a]⟩ ![0, 2] h X (ix3 q u k) = X (ix2 q k) :=
  broadcastInDim_apply ![0, 2] h X (ix3 q u k) (ix2 q k) fun ax => by
    match ax with
    | ⟨0, _⟩ => rfl
    | ⟨1, _⟩ =>
      show k.val = if a = 1 then 0 else k.val
      split
      · have := k.isLt; omega
      · rfl

/-! ## The four operand arrays -/

variable (m : (ℓ : Loc nD τ sig) → Buf (Elt Ideal) ℓ)

/-- One branch's aggregate: the feature rows the edges' sources name (a negative number counted from the end), added
    into the rows the edges' destinations name, from zero. Both programs compute it by these same host operations. -/
def agg (x : (⟨S50000x128, .f32⟩ : BufTy).Contents (Elt Ideal)) (src dst : (⟨S600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- Branch q's feature array, aggregate, weight matrix and bias row, from the launch memory. -/
def feat (c : Dev nD) : Fin 3 → (⟨S50000x128, .f32⟩ : BufTy).Contents (Elt Ideal) :=
  ![m ((c : Thread nD τ).loc main_arg0), m ((c : Thread nD τ).loc main_arg1), m ((c : Thread nD τ).loc main_arg2)]
def aggq (c : Dev nD) : Fin 3 → (⟨S50000x128, .f32⟩ : BufTy).Contents (Elt Ideal) :=
  ![agg (m ((c : Thread nD τ).loc main_arg0)) (m ((c : Thread nD τ).loc main_arg3)) (m ((c : Thread nD τ).loc main_arg4)),
    agg (m ((c : Thread nD τ).loc main_arg1)) (m ((c : Thread nD τ).loc main_arg5)) (m ((c : Thread nD τ).loc main_arg6)),
    agg (m ((c : Thread nD τ).loc main_arg2)) (m ((c : Thread nD τ).loc main_arg7)) (m ((c : Thread nD τ).loc main_arg8))]
def wq (c : Dev nD) : Fin 3 → (⟨S128x128, .f32⟩ : BufTy).Contents (Elt Ideal) :=
  ![m ((c : Thread nD τ).loc main_arg9), m ((c : Thread nD τ).loc main_arg10), m ((c : Thread nD τ).loc main_arg11)]
def bq (c : Dev nD) : Fin 3 → (⟨S128, .f32⟩ : BufTy).Contents (Elt Ideal) :=
  ![m ((c : Thread nD τ).loc main_arg12), m ((c : Thread nD τ).loc main_arg13), m ((c : Thread nD τ).loc main_arg14)]

set_option maxHeartbeats 4000000 in
theorem V_aggregates (c : Dev nD) : (V m c main_v33 : S3x50000x128.Idx → EReal)
    = concatenate S3x50000x128 0 [⟨S1x50000x128, broadcastInDim S1x50000x128 ![1, 2] bcast_S50000x128_S1x50000x128_1_2 (aggq m c 0)⟩,
        ⟨S1x50000x128, broadcastInDim S1x50000x128 ![1, 2] bcast_S50000x128_S1x50000x128_1_2 (aggq m c 1)⟩,
        ⟨S1x50000x128, broadcastInDim S1x50000x128 ![1, 2] bcast_S50000x128_S1x50000x128_1_2 (aggq m c 2)⟩]
        concatenates_S1x50000x128_S1x50000x128_S1x50000x128_S3x50000x128_d0 := by
  dsimp only [V, V0]
  simp only [hostOps0, List.flatten_cons, List.flatten_nil, List.append_nil]
  after_results_simp3 <;> rfl

set_option maxHeartbeats 4000000 in
theorem V_features (c : Dev nD) : (V m c main_v37 : S3x50000x128.Idx → EReal)
    = concatenate S3x50000x128 0 [⟨S1x50000x128, broadcastInDim S1x50000x128 ![1, 2] bcast_S50000x128_S1x50000x128_1_2 (feat m c 0)⟩,
        ⟨S1x50000x128, broadcastInDim S1x50000x128 ![1, 2] bcast_S50000x128_S1x50000x128_1_2 (feat m c 1)⟩,
        ⟨S1x50000x128, broadcastInDim S1x50000x128 ![1, 2] bcast_S50000x128_S1x50000x128_1_2 (feat m c 2)⟩]
        concatenates_S1x50000x128_S1x50000x128_S1x50000x128_S3x50000x128_d0 := by
  dsimp only [V, V0]
  simp only [hostOps0, List.flatten_cons, List.flatten_nil, List.append_nil]
  after_results_simp3 <;> rfl

set_option maxHeartbeats 4000000 in
theorem V_weights (c : Dev nD) : (V m c main_v41 : S3x128x128.Idx → EReal)
    = concatenate S3x128x128 0 [⟨S1x128x128, broadcastInDim S1x128x128 ![1, 2] bcast_S128x128_S1x128x128_1_2 (wq m c 0)⟩,
        ⟨S1x128x128, broadcastInDim S1x128x128 ![1, 2] bcast_S128x128_S1x128x128_1_2 (wq m c 1)⟩,
        ⟨S1x128x128, broadcastInDim S1x128x128 ![1, 2] bcast_S128x128_S1x128x128_1_2 (wq m c 2)⟩]
        concatenates_S1x128x128_S1x128x128_S1x128x128_S3x128x128_d0 := by
  dsimp only [V, V0]
  simp only [hostOps0, List.flatten_cons, List.flatten_nil, List.append_nil]
  after_results_simp3 <;> rfl

set_option maxHeartbeats 4000000 in
theorem V_biases (c : Dev nD) : (V m c main_v46 : S3x1x128.Idx → EReal)
    = broadcastInDim S3x1x128 ![0, 2] bcast_S3x128_S3x1x128_0_2
        (concatenate S3x128 0 [⟨S1x128, broadcastInDim S1x128 ![1] bcast_S128_S1x128_1 (bq m c 0)⟩,
          ⟨S1x128, broadcastInDim S1x128 ![1] bcast_S128_S1x128_1 (bq m c 1)⟩,
          ⟨S1x128, broadcastInDim S1x128 ![1] bcast_S128_S1x128_1 (bq m c 2)⟩]
          concatenates_S1x128_S1x128_S1x128_S3x128_d0) := by
  dsimp only [V, V0]
  simp only [hostOps0, List.flatten_cons, List.flatten_nil, List.append_nil]
  after_results_simp3 <;> rfl

/-! ## Read at an entry -/

attribute [local irreducible] agg

theorem aggregates_apply (c : Dev nD) (q : Fin 3) (r : Fin 50000) (k : Fin 128) :
    (V m c main_v33 : S3x50000x128.Idx → EReal) (ix3 q r k) = aggq m c q (ix2 r k) := by
  rw [V_aggregates]
  refine (stack3_apply (fun q' => broadcastInDim S1x50000x128 ![1, 2] bcast_S50000x128_S1x50000x128_1_2 (aggq m c q')) _ q r k).trans ?_
  exact plane_apply _ _ _ r k

theorem features_apply (c : Dev nD) (q : Fin 3) (r : Fin 50000) (k : Fin 128) :
    (V m c main_v37 : S3x50000x128.Idx → EReal) (ix3 q r k) = feat m c q (ix2 r k) := by
  rw [V_features]
  refine (stack3_apply (fun q' => broadcastInDim S1x50000x128 ![1, 2] bcast_S50000x128_S1x50000x128_1_2 (feat m c q')) _ q r k).trans ?_
  exact plane_apply _ _ _ r k

theorem weights_apply (c : Dev nD) (q : Fin 3) (a b : Fin 128) :
    (V m c main_v41 : S3x128x128.Idx → EReal) (ix3 q a b) = wq m c q (ix2 a b) := by
  rw [V_weights]
  refine (stack3_apply (fun q' => broadcastInDim S1x128x128 ![1, 2] bcast_S128x128_S1x128x128_1_2 (wq m c q')) _ q a b).trans ?_
  exact plane_apply _ _ _ a b

theorem biases_apply (c : Dev nD) (q : Fin 3) (u : Fin 1) (k : Fin 128) :
    (V m c main_v46 : S3x1x128.Idx → EReal) (ix3 q u k) = bq m c q (ix1 k) := by
  rw [V_biases]
  refine (mid_apply _ _ q u k).trans ?_
  refine (stack3_rows_apply (fun q' => broadcastInDim S1x128 ![1] bcast_S128_S1x128_1 (bq m c q')) _ q k).trans ?_
  exact row_apply _ _ _ k

theorem weights_apply' (c : Dev nD) (q : Fin 3) (j' : (⟨2, ![128, 128]⟩ : Shape).Idx) :
    (V m c main_v41 : S3x128x128.Idx → EReal) (ix3 q (j' 0) (j' 1)) = wq m c q j' :=
  (weights_apply m c q (j' 0) (j' 1)).trans (congrArg (wq m c q) (eq_ix2 j').symm)

theorem biases_apply' (c : Dev nD) (q : Fin 3) (u : Fin 1) (j' : (⟨1, ![128]⟩ : Shape).Idx) :
    (V m c main_v46 : S3x1x128.Idx → EReal) (ix3 q u (j' 0)) = bq m c q j' :=
  (biases_apply m c q u (j' 0)).trans (congrArg (bq m c q) (eq_ix1 j').symm)

end Cert.KernelIdeal.HostPrefix

end
-- ==== Proof.KernelIdealResult.lean ====
/-
  The idealized kernel's three results. The host lines after the launch cut plane q out of the launch's [3, 50000, 128]
  result array and view it as [50000, 128]; that plane is branch q's layer of branch q's aggregate, weights, bias and
  features. So result q is  max(Σ_k agg_q(r, k) · W_q(k, c) + b_q(c), 0) + h_q(r, c)  at every (r, c).
-/
import proofs.«176697_j66185446032026_1_alg».proof.Proof.KernelIdealBlocks
import proofs.«176697_j66185446032026_1_alg».proof.Proof.KernelIdealHost
import Idealize.ShloMosaic.Lib.ValueLayout

set_option maxRecDepth 16384

noncomputable section

namespace Cert.KernelIdeal.Result

open Cert.KernelIdeal Cert.KernelIdeal.Gen Cert.KernelIdeal.Region Cert.KernelIdeal.Blocks Cert.KernelIdeal.HostPrefix
open Idealize.ShloMosaic Idealize.ShloMosaic.TcCoe Idealize.ShloMosaic.ValueIdx Idealize.ShloMosaic.StableHlo Idealize.SL.Sem
open Cert.Dense Cert.Layer
open Idealize.ShloMosaic.Pipeline (Dat)

variable (m : (ℓ : Loc nD τ sig) → Buf (Elt Ideal) ℓ) (ρ : Dev nD → PrngReg)

/-- Plane q of a [3, 50000, 128] array, cut out and viewed as [50000, 128], reads the array at (q, r, k). -/
theorem plane_of_stack {α : Type} (X : S3x50000x128.Idx → α) (q : Fin 3)
    (hs : S3x50000x128.Slices ![q.val, 0, 0] S1x50000x128) (hc : S1x50000x128.ShapeCasts S50000x128) :
    shapeCast S50000x128 (extractStridedSlice S1x50000x128 ![q.val, 0, 0] X hs) hc = fun i => X (ix3 q (i 0) (i 1)) := by
  funext i
  obtain ⟨r, k, rfl⟩ : ∃ (r : Fin 50000) (k : Fin 128), i = ix2 r k := ⟨i 0, i 1, eq_ix2 i⟩
  refine (shapeCast_1ab_ab_apply _ hc r k).trans ?_
  refine extractStridedSlice_apply _ X hs (ix3 (0 : Fin 1) r k) (ix3 q r k) fun a => ?_
  match a with
  | ⟨0, _⟩ => rfl
  | ⟨1, _⟩ => exact (Nat.zero_add _).symm
  | ⟨2, _⟩ => exact (Nat.zero_add _).symm

/-- Plane q of the launch's result array is branch q's layer. -/
theorem plane_eq (c : Dev nD) (q : Fin 3) :
    (fun i : S50000x128.Idx => (dats m 0 c).arrAt 4 cfg0.N (ix3 q (i 0) (i 1)))
      = branch (aggq m c q) (wq m c q) (bq m c q) (feat m c q) := by
  funext i
  obtain ⟨r, k, rfl⟩ : ∃ (r : Fin 50000) (k : Fin 128), i = ix2 r k := ⟨i 0, i 1, eq_ix2 i⟩
  rw [final]
  show max (affine (K := 128) (C := 128) (fun j' : (⟨2, ![128, 128]⟩ : Shape).Idx => (V m c main_v41 : S3x128x128.Idx → EReal) (ix3 q (j' 0) (j' 1)))
      (fun j' : (⟨1, ![128]⟩ : Shape).Idx => (V m c main_v46 : S3x1x128.Idx → EReal) (ix3 q (0 : Fin 1) (j' 0)))
      (fun k' : Fin 128 => (V m c main_v33 : S3x50000x128.Idx → EReal) (ix3 q r k')) k) 0 + (V m c main_v37 : S3x50000x128.Idx → EReal) (ix3 q r k)
    = max (affine (wq m c q) (bq m c q) (fun k' => aggq m c q (ix2 r k')) k) 0 + feat m c q (ix2 r k)
  have eW : (fun j' : (⟨2, ![128, 128]⟩ : Shape).Idx => (V m c main_v41 : S3x128x128.Idx → EReal) (ix3 q (j' 0) (j' 1))) = wq m c q :=
    funext fun j' => weights_apply' m c q j'
  have eB : (fun j' : (⟨1, ![128]⟩ : Shape).Idx => (V m c main_v46 : S3x1x128.Idx → EReal) (ix3 q (0 : Fin 1) (j' 0))) = bq m c q :=
    funext fun j' => biases_apply' m c q 0 j'
  have eA : (fun k' : Fin 128 => (V m c main_v33 : S3x50000x128.Idx → EReal) (ix3 q r k')) = fun k' => aggq m c q (ix2 r k') :=
    funext fun k' => aggregates_apply m c q r k'
  refine congrArg₂ (fun x y : EReal => max x 0 + y) ?_ (features_apply m c q r k)
  exact (congrArg (fun W => affine (K := 128) (C := 128) W _ _ k) eW).trans
    ((congrArg (fun b => affine (K := 128) (C := 128) (wq m c q) b _ k) eB).trans
      (congrArg (fun v => affine (K := 128) (C := 128) (wq m c q) (bq m c q) v k) eA))

/-- The three results as the host lines after the launch leave them: planes 0, 1, 2 of the launch's result array. -/
theorem tail_result0 (c : Dev nD) : (Pipeline.afterTail₀ cfgs (dats m) 0 (V0 m) [hostOps1] c main_v49 : S50000x128.Idx → EReal)
    = shapeCast S50000x128 (extractStridedSlice S1x50000x128 ![0, 0, 0] ((dats m 0 c).arrAt 4 cfg0.N) slices_S3x50000x128_S1x50000x128_0_0_0) shapeCasts_S1x50000x128_S50000x128 := by
  unfold Pipeline.afterTail₀
  show StableHlo.after hostOps1 _ (Proc.devRef .tc main_v49) = _
  after_results
  rw [Pipeline.withArrays_arr spec0 launch0.win.arr_inj c _ _ 4]
  rfl

theorem tail_result1 (c : Dev nD) : (Pipeline.afterTail₀ cfgs (dats m) 0 (V0 m) [hostOps1] c main_v51 : S50000x128.Idx → EReal)
    = shapeCast S50000x128 (extractStridedSlice S1x50000x128 ![1, 0, 0] ((dats m 0 c).arrAt 4 cfg0.N) slices_S3x50000x128_S1x50000x128_1_0_0) shapeCasts_S1x50000x128_S50000x128 := by
  unfold Pipeline.afterTail₀
  show StableHlo.after hostOps1 _ (Proc.devRef .tc main_v51) = _
  after_results
  rw [Pipeline.withArrays_arr spec0 launch0.win.arr_inj c _ _ 4]
  rfl

theorem tail_result2 (c : Dev nD) : (Pipeline.afterTail₀ cfgs (dats m) 0 (V0 m) [hostOps1] c main_v53 : S50000x128.Idx → EReal)
    = shapeCast S50000x128 (extractStridedSlice S1x50000x128 ![2, 0, 0] ((dats m 0 c).arrAt 4 cfg0.N) slices_S3x50000x128_S1x50000x128_2_0_0) shapeCasts_S1x50000x128_S50000x128 := by
  unfold Pipeline.afterTail₀
  show StableHlo.after hostOps1 _ (Proc.devRef .tc main_v53) = _
  after_results
  rw [Pipeline.withArrays_arr spec0 launch0.win.arr_inj c _ _ 4]
  rfl

/-- Result q is branch q's layer. -/
theorem result0 (c : Dev nD) : (Pipeline.afterTail₀ cfgs (dats m) 0 (V0 m) [hostOps1] c main_v49 : S50000x128.Idx → EReal)
    = branch (aggq m c 0) (wq m c 0) (bq m c 0) (feat m c 0) :=
  (tail_result0 m c).trans ((plane_of_stack _ 0 _ _).trans (plane_eq m c 0))
theorem result1 (c : Dev nD) : (Pipeline.afterTail₀ cfgs (dats m) 0 (V0 m) [hostOps1] c main_v51 : S50000x128.Idx → EReal)
    = branch (aggq m c 1) (wq m c 1) (bq m c 1) (feat m c 1) :=
  (tail_result1 m c).trans ((plane_of_stack _ 1 _ _).trans (plane_eq m c 1))
theorem result2 (c : Dev nD) : (Pipeline.afterTail₀ cfgs (dats m) 0 (V0 m) [hostOps1] c main_v53 : S50000x128.Idx → EReal)
    = branch (aggq m c 2) (wq m c 2) (bq m c 2) (feat m c 2) :=
  (tail_result2 m c).trans ((plane_of_stack _ 2 _ _).trans (plane_eq m c 2))

/-- The idealized kernel's run with its three results named: every weakly fair execution terminates, result q at
    branch q's layer, the fifteen argument arrays unchanged. -/
theorem run : θ_run defs (onTc (τ := τ) (main (F := Ideal))) ⟨m, fun _ => 0, ρ⟩ fun r => ∀ c : Dev nD,
      r.2.mem ((c.tc : Thread nD τ).loc main_v49) = branch (aggq m c 0) (wq m c 0) (bq m c 0) (feat m c 0)
      ∧ r.2.mem ((c.tc : Thread nD τ).loc main_v51) = branch (aggq m c 1) (wq m c 1) (bq m c 1) (feat m c 1)
      ∧ r.2.mem ((c.tc : Thread nD τ).loc main_v53) = branch (aggq m c 2) (wq m c 2) (bq m c 2) (feat m c 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨((h c).2 main_v49 (Pipeline.mem_restRefs_of main_v49 (by decide) (by decide))).trans (result0 m c),
     ((h c).2 main_v51 (Pipeline.mem_restRefs_of main_v51 (by decide) (by decide))).trans (result1 m c),
     ((h c).2 main_v53 (Pipeline.mem_restRefs_of main_v53 (by decide) (by decide))).trans (result2 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c),
     ((h c).2 main_arg14 (Pipeline.mem_restRefs_of main_arg14 (by decide) (by decide))).trans (W_main_arg14 m (dats m) c)⟩)
    (run_main m ρ)

end Cert.KernelIdeal.Result

end
-- ==== Proof.ReferenceValue.lean ====
/-
  The reference's three results, each one branch of the layer: the host's general product of the aggregated rows with
  the weights, the bias row laid over every row and added, the maximum with zero, the node features added, is at the
  entry (r, c)  max(Σ_k A(r, k) · W(k, c) + b(c), 0) + h(r, c).
-/
import proofs.«176697_j66185446032026_1_alg».proof.Proof.Gen.ReferenceIdeal.Run
import proofs.«176697_j66185446032026_1_alg».proof.Proof.Spec

noncomputable section

namespace Cert.ReferenceIdeal.RefValue

open Cert.ReferenceIdeal Cert.ReferenceIdeal.Gen Idealize.ShloMosaic Idealize.ShloMosaic.ValueIdx Cert.Dense Cert.Layer

/-- The host's spelling of one branch is the layer, entry by entry. -/
theorem host_branch (A : FVec Ideal S50000x128 .f32) (W : FVec Ideal S128x128 .f32) (b : FVec Ideal S128 .f32)
    (h : FVec Ideal S50000x128 .f32) :
    addf (maximumf (addf (Host.dotGeneral dot_S50000x128_S128x128_S50000x128_1_0_0_1_n_n none A W)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))) h
      = branch A W b h := by
  funext i
  obtain ⟨r, c, rfl⟩ : ∃ (r : Fin 50000) (c : Fin 128), i = ix2 r c := ⟨i 0, i 1, eq_ix2 i⟩
  rw [addf_apply, host_relu_apply, host_affine_apply _ rfl rfl rfl rfl rfl rfl]
  rfl

end Cert.ReferenceIdeal.RefValue

end
-- ==== Proof.lean ====
/-
  One graph layer on three edge types. For each branch the edges' source rows of the node features are gathered and
  added into their destination rows (agg), and the layer's output is  max(agg · W + b, 0) + h.  The kernel program
  computes the three aggregates on the host, stacks the three branches' operands along a new leading axis, applies the
  dense part to tiles of 5000 rows in one launch on a 3 × 10 grid (operands narrowed to bf16 before the product), and
  cuts the stacked result back into three arrays; the reference applies the dense part to each branch whole.

  Over the extended reals the narrowing is the identity, and the product of a tile's row with the weights is the same
  sum over k whether one tile or the whole array is multiplied, so entry (r, c) of result q is on both sides
      max(Σ_k agg_q(r, k) · W_q(k, c) + b_q(c), 0) + h_q(r, c),
  the aggregate agg_q being the same host operations of the same arguments in both programs. No law of the extended
  reals beyond this identity of terms is used, so the precondition is never opened.

  The kernel programs' frames: the launch's body loads its four input blocks and stores its output block whole, the
  host lines write only their own result buffers, so every run ends and no argument array is written. The reference's
  frame is its run read back with the results dropped. The idealization rewrote nothing.
-/
import proofs.«176697_j66185446032026_1_alg».proof.Defs
import proofs.«176697_j66185446032026_1_alg».proof.Proof.Gen.Kernel
import proofs.«176697_j66185446032026_1_alg».proof.Proof.Gen.Kernel.Skeleton
import proofs.«176697_j66185446032026_1_alg».proof.Proof.Gen.Kernel.Launch
import proofs.«176697_j66185446032026_1_alg».proof.Proof.Gen.Kernel.Points
import proofs.«176697_j66185446032026_1_alg».proof.Proof.Gen.KernelIdeal
import proofs.«176697_j66185446032026_1_alg».proof.Proof.Gen.KernelIdeal.Skeleton
import proofs.«176697_j66185446032026_1_alg».proof.Proof.Gen.KernelIdeal.Launch
import proofs.«176697_j66185446032026_1_alg».proof.Proof.Gen.KernelIdeal.Points
import proofs.«176697_j66185446032026_1_alg».proof.Proof.Gen.ReferenceIdeal
import proofs.«176697_j66185446032026_1_alg».proof.Proof.Gen.Pre_finite_inputs
import proofs.«176697_j66185446032026_1_alg».proof.Proof.Gen.ReferenceIdeal.Run
import proofs.«176697_j66185446032026_1_alg».proof.Proof.KernelFrame
import proofs.«176697_j66185446032026_1_alg».proof.Proof.KernelIdealFrame
import proofs.«176697_j66185446032026_1_alg».proof.Proof.KernelIdealResult
import proofs.«176697_j66185446032026_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem
open Cert.Layer Cert.KernelIdeal.HostPrefix

theorem frame_kernel : Cert.frame_Kernel := fun m ρ _ => Cert.Kernel.Region.frame m ρ

theorem frame_kernelIdeal : Cert.frame_KernelIdeal := fun m ρ _ => Cert.KernelIdeal.Region.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with result q at branch q's layer of the same arguments. -/
theorem algebraic : Cert.algebraic_KernelIdeal_ReferenceIdeal := by
  intro m ρ m' ρ' _ hagree
  refine ⟨fun c => branch (aggq m c 0) (wq m c 0) (bq m c 0) (feat m c 0),
    fun c => branch (aggq m c 1) (wq m c 1) (bq m c 1) (feat m c 1),
    fun c => branch (aggq m c 2) (wq m c 2) (bq m c 2) (feat m c 2),
    Cert.KernelIdeal.Result.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3, a4, a5, a6, a7, a8, a9, a10, a11, a12, a13, a14⟩ := hagree c
  refine ⟨h0.trans ?_, h1.trans ?_, h2.trans ?_, hrest⟩
  · rw [Cert.ReferenceIdeal.RefValue.host_branch, a0, a3, a4, a9, a12]; rfl
  · rw [Cert.ReferenceIdeal.RefValue.host_branch, a1, a5, a6, a10, a13]; rfl
  · rw [Cert.ReferenceIdeal.RefValue.host_branch, a2, a7, a8, a11, a14]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
